-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S33554432 : Shape := ⟨1, ![33554432]⟩
abbrev S2x33554432 : Shape := ⟨2, ![2, 33554432]⟩
abbrev S8192 : Shape := ⟨1, ![8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S33554432 : S_.BroadcastsInDim S33554432 (![] : Fin 0 → Fin S33554432.rank)
  reducesTo_S33554432_S_d0 : S33554432.ReducesTo [0] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x8192 .f32) (main_arg1 : FVec F S33554432 .f32) (main_arg2 : IVec S2x33554432 32) (main_arg3 : FVec F S8192 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32x8192 : Shape := ⟨2, ![32, 8192]⟩
abbrev S33554432 : Shape := ⟨1, ![33554432]⟩
abbrev S2x33554432 : Shape := ⟨2, ![2, 33554432]⟩
abbrev S8192 : Shape := ⟨1, ![8192]⟩
abbrev S_ : Shape := ⟨0, ![]⟩
abbrev S8192x8192 : Shape := ⟨2, ![8192, 8192]⟩
abbrev S1x33554432 : Shape := ⟨2, ![1, 33554432]⟩
abbrev S33554432x1 : Shape := ⟨2, ![33554432, 1]⟩
abbrev S33554432x2 : Shape := ⟨2, ![33554432, 2]⟩
abbrev S1x8192 : Shape := ⟨2, ![1, 8192]⟩
abbrev S256x8192 : Shape := ⟨2, ![256, 8192]⟩
abbrev S1x256 : Shape := ⟨2, ![1, 256]⟩
abbrev S32x256 : Shape := ⟨2, ![32, 256]⟩

abbrev nBuf : Space → Nat
  | .hbm => 30
  | .vmem => 7
  | .smem => 0
  | _ => 0

abbrev bufTy : (tb : Table) → Fin (tcTables nBuf tb) → BufTy
  | .hbm, ⟨0, _⟩ => ⟨S32x8192, .f32⟩
  | .hbm, ⟨1, _⟩ => ⟨S33554432, .f32⟩
  | .hbm, ⟨2, _⟩ => ⟨S2x33554432, .i32⟩
  | .hbm, ⟨3, _⟩ => ⟨S8192, .f32⟩
  | .hbm, ⟨4, _⟩ => ⟨S_, .f32⟩
  | .hbm, ⟨5, _⟩ => ⟨S8192x8192, .f32⟩
  | .hbm, ⟨6, _⟩ => ⟨S1x33554432, .i32⟩
  | .hbm, ⟨7, _⟩ => ⟨S33554432, .i32⟩
  | .hbm, ⟨8, _⟩ => ⟨S1x33554432, .i32⟩
  | .hbm, ⟨9, _⟩ => ⟨S33554432, .i32⟩
  | .hbm, ⟨10, _⟩ => ⟨S_, .i32⟩
  | .hbm, ⟨11, _⟩ => ⟨S33554432, .i32⟩
  | .hbm, ⟨12, _⟩ => ⟨S33554432, .i1⟩
  | .hbm, ⟨13, _⟩ => ⟨S_, .i32⟩
  | .hbm, ⟨14, _⟩ => ⟨S33554432, .i32⟩
  | .hbm, ⟨15, _⟩ => ⟨S33554432, .i32⟩
  | .hbm, ⟨16, _⟩ => ⟨S33554432, .i32⟩
  | .hbm, ⟨17, _⟩ => ⟨S_, .i32⟩
  | .hbm, ⟨18, _⟩ => ⟨S33554432, .i32⟩
  | .hbm, ⟨19, _⟩ => ⟨S33554432, .i1⟩
  | .hbm, ⟨20, _⟩ => ⟨S_, .i32⟩
  | .hbm, ⟨21, _⟩ => ⟨S33554432, .i32⟩
  | .hbm, ⟨22, _⟩ => ⟨S33554432, .i32⟩
  | .hbm, ⟨23, _⟩ => ⟨S33554432, .i32⟩
  | .hbm, ⟨24, _⟩ => ⟨S33554432x1, .i32⟩
  | .hbm, ⟨25, _⟩ => ⟨S33554432x1, .i32⟩
  | .hbm, ⟨26, _⟩ => ⟨S33554432x2, .i32⟩
  | .hbm, ⟨27, _⟩ => ⟨S8192x8192, .f32⟩
  | .hbm, ⟨28, _⟩ => ⟨S1x8192, .f32⟩
  | .hbm, ⟨29, _⟩ => ⟨S32x8192, .f32⟩
  | .local _ .vmem, ⟨0, _⟩ => ⟨S32x8192, .f32⟩
  | .local _ .vmem, ⟨1, _⟩ => ⟨S256x8192, .f32⟩
  | .local _ .vmem, ⟨2, _⟩ => ⟨S256x8192, .f32⟩
  | .local _ .vmem, ⟨3, _⟩ => ⟨S1x256, .f32⟩
  | .local _ .vmem, ⟨4, _⟩ => ⟨S1x256, .f32⟩
  | .local _ .vmem, ⟨5, _⟩ => ⟨S32x256, .f32⟩
  | .local _ .vmem, ⟨6, _⟩ => ⟨S32x256, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8192x8192 : S_.BroadcastsInDim S8192x8192 (![] : Fin 0 → Fin S8192x8192.rank)
  slices_S2x33554432_S1x33554432_0_0 : S2x33554432.Slices ![0, 0] S1x33554432
  shapeCasts_S1x33554432_S33554432 : S1x33554432.ShapeCasts S33554432
  slices_S2x33554432_S1x33554432_1_0 : S2x33554432.Slices ![1, 0] S1x33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  concatenates_S33554432x1_S33554432x1_S33554432x2_d1 : Shape.Concatenates [S33554432x1, S33554432x1] S33554432x2 1
  shapeCasts_S8192_S1x8192 : S8192.ShapeCasts S1x8192
  inb_S32x8192_S32x8192_0_0 : ∀ a, (![0, 0] : Fin 2 → Nat) a + S32x8192.size a ≤ S32x8192.size a
  h_S32x8192 : 0 < S32x8192.numel
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  scatter_S8192x8192_S33554432x2_S33554432_n_01_01_1_wf : ScatterDims.WF S8192x8192 S33554432x2 S33554432 [] [0, 1] [0, 1] 1
  dot_S32x8192_S256x8192_S32x256_1_1_0_0_n_n_wf : DotDims.WF S32x8192 S256x8192 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .f32 = 32 ∨ (Rect.block (s := S32x8192) S32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x8192.size a
  hwx0_3 : ∀ i : grid0.Coords, EltTy.bits .f32 = 32 ∨ (Rect.block (s := S32x8192) S32x256.size (cc0_transform_3 i) (hinb0_3 i)).WholeWords (EltTy.packing .f32)

variable [Facts₀]

def scatter_S8192x8192_S33554432x2_S33554432_n_01_01_1 : ScatterDims S8192x8192 S33554432x2 S33554432 where
  updateWindowDims := []
  insertedWindowDims := [0, 1]
  scatterDimsToOperandDims := [0, 1]
  indexVectorDim := 1
  wf := scatter_S8192x8192_S33554432x2_S33554432_n_01_01_1_wf
def dot_S32x8192_S256x8192_S32x256_1_1_0_0_n_n : DotDims S32x8192 S256x8192 S32x256 where
  lhsContracting := [1]
  rhsContracting := [1]
  lhsNonContracting := [0]
  rhsNonContracting := [0]
  lhsBatch := []
  rhsBatch := []
  wf := dot_S32x8192_S256x8192_S32x256_1_1_0_0_n_n_wf

abbrev win0_0 : Pipeline.Window sig grid0 :=
  Pipeline.Window.ofSpec (Memref.whole main_arg0) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192 : Shape := ⟨2, ![32, 8192]⟩
abbrev S33554432 : Shape := ⟨1, ![33554432]⟩
abbrev S2x33554432 : Shape := ⟨2, ![2, 33554432]⟩
abbrev S8192 : Shape := ⟨1, ![8192]⟩
abbrev S_ : Shape := ⟨0, ![]⟩
abbrev S8192x8192 : Shape := ⟨2, ![8192, 8192]⟩
abbrev S1x33554432 : Shape := ⟨2, ![1, 33554432]⟩
abbrev S33554432x1 : Shape := ⟨2, ![33554432, 1]⟩
abbrev S33554432x2 : Shape := ⟨2, ![33554432, 2]⟩
abbrev S1x8192 : Shape := ⟨2, ![1, 8192]⟩

abbrev nBuf : Space → Nat
  | .hbm => 32
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S33554432, .f32⟩
  | .hbm, ⟨2, _⟩ => ⟨S2x33554432, .i32⟩
  | .hbm, ⟨3, _⟩ => ⟨S8192, .f32⟩
  | .hbm, ⟨4, _⟩ => ⟨S_, .f32⟩
  | .hbm, ⟨5, _⟩ => ⟨S8192x8192, .f32⟩
  | .hbm, ⟨6, _⟩ => ⟨S1x33554432, .i32⟩
  | .hbm, ⟨7, _⟩ => ⟨S33554432, .i32⟩
  | .hbm, ⟨8, _⟩ => ⟨S1x33554432, .i32⟩
  | .hbm, ⟨9, _⟩ => ⟨S33554432, .i32⟩
  | .hbm, ⟨10, _⟩ => ⟨S_, .i32⟩
  | .hbm, ⟨11, _⟩ => ⟨S33554432, .i32⟩
  | .hbm, ⟨12, _⟩ => ⟨S33554432, .i1⟩
  | .hbm, ⟨13, _⟩ => ⟨S_, .i32⟩
  | .hbm, ⟨14, _⟩ => ⟨S33554432, .i32⟩
  | .hbm, ⟨15, _⟩ => ⟨S33554432, .i32⟩
  | .hbm, ⟨16, _⟩ => ⟨S33554432, .i32⟩
  | .hbm, ⟨17, _⟩ => ⟨S_, .i32⟩
  | .hbm, ⟨18, _⟩ => ⟨S33554432, .i32⟩
  | .hbm, ⟨19, _⟩ => ⟨S33554432, .i1⟩
  | .hbm, ⟨20, _⟩ => ⟨S_, .i32⟩
  | .hbm, ⟨21, _⟩ => ⟨S33554432, .i32⟩
  | .hbm, ⟨22, _⟩ => ⟨S33554432, .i32⟩
  | .hbm, ⟨23, _⟩ => ⟨S33554432, .i32⟩
  | .hbm, ⟨24, _⟩ => ⟨S33554432x1, .i32⟩
  | .hbm, ⟨25, _⟩ => ⟨S33554432x1, .i32⟩
  | .hbm, ⟨26, _⟩ => ⟨S33554432x2, .i32⟩
  | .hbm, ⟨27, _⟩ => ⟨S8192x8192, .f32⟩
  | .hbm, ⟨28, _⟩ => ⟨S32x8192, .f32⟩
  | .hbm, ⟨29, _⟩ => ⟨S1x8192, .f32⟩
  | .hbm, ⟨30, _⟩ => ⟨S32x8192, .f32⟩
  | .hbm, ⟨31, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x33554432_S1x33554432_0_0 : S2x33554432.Slices ![0, 0] S1x33554432
  shapeCasts_S1x33554432_S33554432 : S1x33554432.ShapeCasts S33554432
  slices_S2x33554432_S1x33554432_1_0 : S2x33554432.Slices ![1, 0] S1x33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  concatenates_S33554432x1_S33554432x1_S33554432x2_d1 : Shape.Concatenates [S33554432x1, S33554432x1] S33554432x2 1
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  scatter_S8192x8192_S33554432x2_S33554432_n_01_01_1_wf : ScatterDims.WF S8192x8192 S33554432x2 S33554432 [] [0, 1] [0, 1] 1
  dot_S32x8192_S8192x8192_S32x8192_1_1_0_0_n_n_wf : DotDims.WF S32x8192 S8192x8192 S32x8192 [1] [1] [0] [0] [] []

variable [Facts₀]

def scatter_S8192x8192_S33554432x2_S33554432_n_01_01_1 : ScatterDims S8192x8192 S33554432x2 S33554432 where
  updateWindowDims := []
  insertedWindowDims := [0, 1]
  scatterDimsToOperandDims := [0, 1]
  indexVectorDim := 1
  wf := scatter_S8192x8192_S33554432x2_S33554432_n_01_01_1_wf
def dot_S32x8192_S8192x8192_S32x8192_1_1_0_0_n_n : DotDims S32x8192 S8192x8192 S32x8192 where
  lhsContracting := [1]
  rhsContracting := [1]
  lhsNonContracting := [0]
  rhsNonContracting := [0]
  lhsBatch := []
  rhsBatch := []
  wf := dot_S32x8192_S8192x8192_S32x8192_1_1_0_0_n_n_wf

class Facts : Prop extends Facts₀ where

variable [Facts]
-- ==== Proof.Spec.lean ====
/-
  The dense layer both programs compute, as ONE function of three arrays, index by index, on the
  extended reals:
      out[b, o] = (∑ i : Fin 8192, x[b, i] * w[o, i]) + bias[o]
  for a batch of 32 rows `x`, a square weight `w` stored one row per output feature (so the product
  is `x · wᵀ`), and a bias vector added to every row. The weight is whatever array the
  reconstruction from its sparse coordinate form produced: nothing here looks inside it.
-/
import Idealize.ShloMosaic.PureOps.Ideal
import Idealize.ShloMosaic.Lib.ValueIdx

noncomputable section

open scoped BigOperators

namespace Cert.DenseLayer

open Idealize.ShloMosaic Idealize.ShloMosaic.ValueIdx

/-- One entry of the layer's output: row `b` of the input against row `o` of the weight, plus the
    bias of output feature `o`. -/
def denseAt (x : (⟨2, ![32, 8192]⟩ : Shape).Idx → EReal) (w : (⟨2, ![8192, 8192]⟩ : Shape).Idx → EReal)
    (bias : (⟨1, ![8192]⟩ : Shape).Idx → EReal) (b : Fin 32) (o : Fin 8192) : EReal :=
  (∑ i : Fin 8192, x (ix2 b i) * w (ix2 o i)) + bias (ix1 o)

/-- The whole output array `[32, 8192]`. -/
def dense (x : (⟨2, ![32, 8192]⟩ : Shape).Idx → EReal) (w : (⟨2, ![8192, 8192]⟩ : Shape).Idx → EReal)
    (bias : (⟨1, ![8192]⟩ : Shape).Idx → EReal) : (⟨2, ![32, 8192]⟩ : Shape).Idx → EReal :=
  fun j => denseAt x w bias (j 0) (j 1)

/-- At an index given by its coordinates the output is that entry. -/
theorem dense_ix2 (x : (⟨2, ![32, 8192]⟩ : Shape).Idx → EReal) (w : (⟨2, ![8192, 8192]⟩ : Shape).Idx → EReal)
    (bias : (⟨1, ![8192]⟩ : Shape).Idx → EReal) (b : Fin 32) (o : Fin 8192) :
    dense x w bias (ix2 b o) = denseAt x w bias b o := rfl

end Cert.DenseLayer

end
-- ==== Proof.LibDotNT.lean ====
/-
  A matrix product with the RIGHT operand read transposed, read at an index, at the ideal instance
  (floats are the extended reals).

  The product of an `[M, K]` array by an `[N, K]` array, contracting the LAST axis of both
  (`out[p, q] = Σ_k l[p, k] · r[q, k]`, that is `l · rᵀ`: a dense layer's `x · Wᵀ` with the weight
  stored row per output feature), is written either as the accelerator's multiply-accumulate into an
  accumulator that is zero everywhere, or as the host's general dot product. At the ideal instance
  both are, at `(p, q)`, the sum over the contraction index of the products of the operands'
  entries, with no rounding and no order of summation left in it. The contraction index set of a
  product with ONE contracted axis is a rank-1 index set; re-indexed by its coordinate the sum runs
  over `Fin K`:
      (l · rᵀ)[p, q] = ∑ k : Fin K, l[p, k] * r[q, k].
-/
import Idealize.ShloMosaic.PureOps.Ideal
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

/-- [M,K] x [N,K] -> [M,N], contracting axis 1 of both (the right operand read transposed), no
    batch axis: the result's axis 0 is the left operand's axis 0 and its axis 1 the right operand's
    axis 0. -/
abbrev ntDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

section NT
variable {M K N : Nat}
  (wf : DotDims.WF ⟨2, ![M, K]⟩ ⟨2, ![N, K]⟩ ⟨2, ![M, N]⟩ [1] [1] [0] [0] [] [])

/-- The left operand's axis 0 is its free axis: its coordinate is the result's row, whatever the
    contraction index. -/
private theorem nt_lhs0 (j : (⟨2, ![M, N]⟩ : Shape).Idx) (k : (ntDims M K N wf).contr.Idx) :
    ((ntDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem nt_lhs1 (j : (⟨2, ![M, N]⟩ : Shape).Idx) (c : Fin K) :
    ((ntDims M K N wf).lhsIdx j ((contrEquiv1 (ntDims M K N wf) K rfl rfl).symm c) 1).val = c.val := by
  rw [(ntDims M K N wf).lhsIdx_val_of_single rfl]
  exact contrEquiv1_symm_val (ntDims M K N wf) K rfl rfl c

/-- The right operand's axis 0 is its free axis: its coordinate is the result's column, whatever
    the contraction index. -/
private theorem nt_rhs0 (j : (⟨2, ![M, N]⟩ : Shape).Idx) (k : (ntDims M K N wf).contr.Idx) :
    ((ntDims M K N wf).rhsIdx j k 0).val = (j 1).val := by
  unfold DotDims.rhsIdx
  rw [dif_neg (show (0 : Fin 2) ∉ ([] : List (Fin 2)) by decide),
    dif_pos (show (0 : Fin 2) ∈ [(0 : Fin 2)] by decide)]
  rfl

/-- The right operand's axis 1 is the contracted one: at the contraction index with coordinate `c`
    its coordinate is `c`. -/
private theorem nt_rhs1 (j : (⟨2, ![M, N]⟩ : Shape).Idx) (c : Fin K) :
    ((ntDims M K N wf).rhsIdx j ((contrEquiv1 (ntDims M K N wf) K rfl rfl).symm c) 1).val = c.val := by
  rw [(ntDims M K N wf).rhsIdx_val_of_single rfl]
  exact contrEquiv1_symm_val (ntDims M K N wf) K rfl rfl c

/-- The contraction's sum at `(p, q)`, over the contraction index set and through the operand
    index maps, is the sum over the contracted coordinate `k : Fin K` of `l[p, k] * r[q, k]`. -/
theorem nt_sum (l : (⟨2, ![M, K]⟩ : Shape).Idx → EReal) (r : (⟨2, ![N, K]⟩ : Shape).Idx → EReal)
    (p : Fin M) (q : Fin N) :
    ∑ k : (ntDims M K N wf).contr.Idx,
        l ((ntDims M K N wf).lhsIdx (ix2 p q) k) * r ((ntDims M K N wf).rhsIdx (ix2 p q) k)
      = ∑ k : Fin K, l (ix2 p k) * r (ix2 q k) := by
  rw [← Equiv.sum_comp (contrEquiv1 (ntDims M K N wf) K rfl rfl).symm]
  refine Finset.sum_congr rfl fun c _ => ?_
  have hl : (ntDims M K N wf).lhsIdx (ix2 p q) ((contrEquiv1 (ntDims M K N wf) K rfl rfl).symm c)
      = ix2 p c := by
    funext a; apply Fin.ext
    match a with
    | ⟨0, _⟩ => exact nt_lhs0 wf (ix2 p q) _
    | ⟨1, _⟩ => exact nt_lhs1 wf (ix2 p q) c
  have hr : (ntDims M K N wf).rhsIdx (ix2 p q) ((contrEquiv1 (ntDims M K N wf) K rfl rfl).symm c)
      = ix2 q c := by
    funext a; apply Fin.ext
    match a with
    | ⟨0, _⟩ => exact nt_rhs0 wf (ix2 p q) _
    | ⟨1, _⟩ => exact nt_rhs1 wf (ix2 p q) c
  rw [hl, hr]

end NT

/-- The accelerator's product of `[M, K]` by `[N, K]` (read transposed) accumulated into the
    all-zero array, at `(p, q)`: `∑ k, l[p, k] * r[q, k]` in the extended reals. -/
theorem matmul_zero_nt_apply {M K N : Nat} {φ₁ φ₂ : FTy}
    (wf : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    FloatOps.matmul (ntDims M K N wf) prec l r (constant ⟨2, ![M, N]⟩ .f32 0x00000000#32) (ix2 p q)
      = ∑ k : Fin K, l (ix2 p k) * r (ix2 q k) := by
  rw [Ideal.matmul_constant_zero_apply]
  exact nt_sum wf l r p q

/-- The host's general dot product of `[M, K]` by `[N, K]` (read transposed), at `(p, q)`, whatever
    its schedule: `∑ k, l[p, k] * r[q, k]` in the extended reals. -/
theorem dotGeneral_nt_apply {M K N : Nat} {φ₁ φ₂ : FTy}
    (wf : DotDims.WF ⟨2, ![M, K]⟩ ⟨2, ![N, K]⟩ ⟨2, ![M, N]⟩ [1] [1] [0] [0] [] [])
    (prec : Option ContractPrecision) (sched : HostSchedule)
    (l : FVec Ideal ⟨2, ![M, K]⟩ φ₁) (r : FVec Ideal ⟨2, ![N, K]⟩ φ₂) (p : Fin M) (q : Fin N) :
    FloatOps.dotGeneral (ntDims M K N wf) prec sched l r (ix2 p q)
      = ∑ k : Fin K, l (ix2 p k) * r (ix2 q k) := by
  rw [Ideal.dotGeneral_apply]
  exact nt_sum wf l r p q

/-- The same for the host's product as a one-device program states it (the single-device
    schedule): at `(p, q)` it is `∑ k, l[p, k] * r[q, k]`. -/
theorem host_dotGeneral_nt_apply {M K N : Nat} {φ₁ φ₂ : FTy}
    (wf : DotDims.WF ⟨2, ![M, K]⟩ ⟨2, ![N, K]⟩ ⟨2, ![M, N]⟩ [1] [1] [0] [0] [] [])
    (prec : Option ContractPrecision)
    (l : FVec Ideal ⟨2, ![M, K]⟩ φ₁) (r : FVec Ideal ⟨2, ![N, K]⟩ φ₂) (p : Fin M) (q : Fin N) :
    Host.dotGeneral (ntDims M K N wf) prec l r (ix2 p q)
      = ∑ k : Fin K, l (ix2 p k) * r (ix2 q k) :=
  dotGeneral_nt_apply wf prec .single l r p q

end Idealize.ShloMosaic.DotNT

end
-- ==== Proof.Payload.lean ====
/-
  What the kernel body stores at one grid point, read at an index, on the extended reals.

  The body loads the whole input `x0 : [32, 8192]`, one strip `x1 : [256, 8192]` of the weight
  (256 output features, each with its full row) and the matching strip `x2 : [1, 256]` of the bias,
  multiplies `x0` by the strip read transposed into a zero accumulator, and adds the bias strip
  broadcast down the 32 rows. The narrowing of both operands to a 16-bit format before the product
  is the identity on the extended reals, so at `(p, q)` the stored value is
      (∑ k, x0[p, k] * x1[q, k]) + x2[0, q].
-/
import proofs.«118479_j17789754540032_1_alg».proof.Proof.Gen.KernelIdeal.Skeleton
import proofs.«118479_j17789754540032_1_alg».proof.Proof.LibDotNT
import Idealize.ShloMosaic.Lib.Pipeline.Value
import Idealize.ShloMosaic.Lib.ValueIdx
import Idealize.ShloMosaic.PureOps.Ideal.Laws

noncomputable section

open scoped BigOperators

namespace Cert.KernelIdeal.DenseLayer

open Cert.KernelIdeal Cert.KernelIdeal.Gen Idealize.ShloMosaic Idealize.ShloMosaic.ValueIdx

/-- The body's product record is the product with the right operand read transposed, at the
    strip's extents. -/
theorem dot_eq : dot_S32x8192_S256x8192_S32x256_1_1_0_0_n_n
    = DotNT.ntDims 32 8192 256 Facts₀.dot_S32x8192_S256x8192_S32x256_1_1_0_0_n_n_wf := rfl

/-- The bias strip broadcast down the rows, at `(p, q)`, is the strip's entry `q`. -/
theorem bias_bcast_apply (x2 : Vec Ideal S1x256 .f32) (p : Fin 32) (q : Fin 256) :
    broadcastTo S32x256 x2 Facts₀.broadcasts_S1x256_S32x256 (ix2 p q) = x2 (ix2 0 q) :=
  broadcastTo_apply x2 Facts₀.broadcasts_S1x256_S32x256 (ix2 p q) (ix2 0 q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-- The stored value at `(p, q)`. -/
theorem pay_apply (x0 : Vec Ideal S32x8192 .f32) (x1 : Vec Ideal S256x8192 .f32) (x2 : Vec Ideal S1x256 .f32)
    (p : Fin 32) (q : Fin 256) :
    k0_pay1 (F := Ideal) x0 x1 x2 (ix2 p q) = (∑ k : Fin 8192, x0 (ix2 p k) * x1 (ix2 q k)) + x2 (ix2 0 q) := by
  unfold k0_pay1
  rw [shapeCast_self, shapeCast_self]
  refine (addf_apply _ _ (ix2 p q)).trans ?_
  rw [bias_bcast_apply]
  refine congrArg (· + x2 (ix2 0 q)) ?_
  rw [dot_eq]
  exact DotNT.matmul_zero_nt_apply _ none _ _ p q

end Cert.KernelIdeal.DenseLayer

end
-- ==== Proof.Weight.lean ====
/-
  The two arrays the host prepares before the kernel region, as the region finds them.

  The weight: the host rebuilds the dense `[8192, 8192]` weight from its coordinate form (a zero
  array, the two index rows wrapped where negative and paired, the values scatter-added at those
  pairs). The reference program rebuilds it with the very same operations, so the array the region
  finds is the reference's reconstruction stage applied to the same two arguments; nothing here
  opens the reconstruction.
  The bias: the host re-lays the `[8192]` vector as one row `[1, 8192]`; entry `(0, o)` of the
  row is entry `o` of the vector.
-/
import proofs.«118479_j17789754540032_1_alg».proof.Proof.Gen.KernelIdeal.Frame
import proofs.«118479_j17789754540032_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.DenseLayer

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

set_option maxHeartbeats 4000000 in
/-- The weight array at region entry is the reference's reconstruction of the values argument and
    the index argument. -/
theorem V_weight (c : Dev nD) :
    (V m c main_v18 : S8192x8192.Idx → Elt F .f32)
      = Cert.ReferenceIdeal.Read.val_main_v18 (F := F) (m ((c : Thread nD τ).loc main_arg1)) (m ((c : Thread nD τ).loc main_arg2)) := by
  dsimp only [Gen.V, Gen.hostOps0]
  after_results
  rfl

set_option maxHeartbeats 4000000 in
/-- The bias row at region entry is the bias argument re-laid as `[1, 8192]`. -/
theorem V_biasRow (c : Dev nD) :
    (V m c main_v19 : S1x8192.Idx → Elt F .f32)
      = shapeCast S1x8192 (m ((c : Thread nD τ).loc main_arg3)) Facts₀.shapeCasts_S8192_S1x8192 := by
  dsimp only [Gen.V, Gen.hostOps0]
  after_results
  rfl

/-- Entry `(0, o)` of the re-laid row is entry `o` of the vector. -/
theorem biasRow_apply {α : Type} (b : S8192.Idx → α) (o : Fin 8192) :
    shapeCast S1x8192 b Facts₀.shapeCasts_S8192_S1x8192 (ix2 0 o) = b (ix1 o) :=
  shapeCast_apply b Facts₀.shapeCasts_S8192_S1x8192 (ix2 0 o) (ix1 o)
    (by rewrite [Shape.rowMajor_val_two, Shape.rowMajor_val_one]; show o.val = 0 * 8192 + o.val; omega)

end Cert.KernelIdeal.DenseLayer

end
-- ==== Proof.KernelValue.lean ====
/-
  The kernel's output array after the run, as the dense layer of the argument arrays.

  The grid has 32 points; point `t` handles output features `256 t … 256 t + 255`. Its input
  blocks are: the whole input `[32, 8192]` (the same block at every point), rows `256 t …` of the
  weight, and columns `256 t …` of the bias row; it writes columns `256 t …` of the output. So what
  point `t` writes at `(p, q)` of its block is entry `(p, 256 t + q)` of the dense layer, the
  32 blocks tile the output's columns, and the array ends as the dense layer whole.
-/
import proofs.«118479_j17789754540032_1_alg».proof.Proof.Gen.KernelIdeal.Value
import proofs.«118479_j17789754540032_1_alg».proof.Proof.Spec
import proofs.«118479_j17789754540032_1_alg».proof.Proof.Payload
import proofs.«118479_j17789754540032_1_alg».proof.Proof.Weight

noncomputable section

open scoped BigOperators

namespace Cert.KernelIdeal.DenseLayer

open Cert.KernelIdeal Cert.KernelIdeal.Gen Idealize.ShloMosaic Idealize.ShloMosaic.TcCoe Idealize.SL.Sem
open Idealize.ShloMosaic.Pipeline (Dat)
open Idealize.ShloMosaic.ValueIdx Cert.DenseLayer

variable (m : (ℓ : Loc nD τ sig) → Buf (Elt Ideal) ℓ) (ρ : Dev nD → PrngReg)

theorem offsets_zero : (![0, 0] : Fin 2 → Nat) = fun _ => 0 := funext fun a => by fin_cases a <;> rfl

/-- Where each window's block sits at grid point `t`: the input's always at the origin, the weight's
    at row block `t`, the bias row's and the output's at column block `t`. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val ∧ t.val < 32 :=
  (by decide +kernel : ∀ t : Fin grid0.N, _)

/-- Every column block of the output is some point's. -/
theorem block_onto : ∀ (q1 : Fin 32), ∃ t : Fin cfg0.N, win0_3.index t = ![0, q1.val] :=
  (by decide +kernel : ∀ (q1 : Fin 32), ∃ t : Fin grid0.N, win0_3.index t = ![0, q1.val])

/-- One point's stored value from its three blocks, when the blocks are the arrays' rows and
    columns at offset `256 n`: entry `(p, 256 n + q)` of the dense layer. -/
theorem point_eq (X : Vec Ideal S32x8192 .f32) (W : Vec Ideal S8192x8192 .f32) (Bv : Vec Ideal S8192 .f32)
    (x0 : Vec Ideal S32x8192 .f32) (x1 : Vec Ideal S256x8192 .f32) (x2 : Vec Ideal S1x256 .f32)
    (n : Nat) (hn : n < 32)
    (h0 : ∀ (p : Fin 32) (k : Fin 8192), x0 (ix2 p k) = X (ix2 p k))
    (h1 : ∀ (q : Fin 256) (k : Fin 8192), x1 (ix2 q k) = W (ix2 (⟨n * 256 + q.val, by have := q.isLt; omega⟩ : Fin 8192) k))
    (h2 : ∀ q : Fin 256, x2 (ix2 0 q) = Bv (ix1 (⟨n * 256 + q.val, by have := q.isLt; omega⟩ : Fin 8192)))
    (p : Fin 32) (q : Fin 256) :
    k0_pay1 (F := Ideal) x0 x1 x2 (ix2 p q)
      = denseAt X W Bv p (⟨n * 256 + q.val, by have := q.isLt; omega⟩ : Fin 8192) := by
  rw [pay_apply]
  unfold denseAt
  rw [h2 q]
  exact congrArg (· + _) (Finset.sum_congr rfl fun k _ => by rw [h0 p k, h1 q k])

/-- What point `t` writes back is block `t` of the dense layer of the three arrays the region finds:
    the input `X`, the weight `W` and the bias `Bv` behind the bias row. (The weight stays a
    variable here: this proof is about blocks and never about how the weight was made.) -/
theorem flushed_eq (c : Dev nD) (t : Fin cfg0.N)
    (X : Vec Ideal S32x8192 .f32) (W : Vec Ideal S8192x8192 .f32) (Bv : Vec Ideal S8192 .f32)
    (hX : (V m c main_arg0 : S32x8192.Idx → Elt Ideal .f32) = X)
    (hW : (V m c main_v18 : S8192x8192.Idx → Elt Ideal .f32) = W)
    (hB : (V m c main_v19 : S1x8192.Idx → Elt Ideal .f32) = shapeCast S1x8192 Bv Facts₀.shapeCasts_S8192_S1x8192) :
    (dats m 0 c).flushed 3 t = ((cfg0.win 3).blk t).view.read (Elt Ideal) (dense X W Bv) := by
  rw [Cert.KernelIdeal.Value.flushed3]
  unfold out0_3
  rw [View.canon_unit_zero offsets_zero]
  simp only [View.ld_unit_zero (S := S32x8192) offsets_zero, View.ld_unit_zero (S := S256x8192) offsets_zero,
    View.ld_unit_zero (S := S1x256) offsets_zero]
  obtain ⟨e00, e01, e10, e11, e20, e21, e30, e31, ht⟩ := block_indices t
  -- each input block is a block of the corresponding array, named by its variable from here on
  have r0 : iblk m c 0 t = ((cfg0.win 0).blk t).view.read (Elt Ideal) X := by
    unfold iblk; rw [show V m c (Pipeline.arrRef spec0 0) = X from hX]
  have r1 : iblk m c 1 t = ((cfg0.win 1).blk t).view.read (Elt Ideal) W := by
    unfold iblk; rw [show V m c (Pipeline.arrRef spec0 1) = W from hW]
  have r2 : iblk m c 2 t = ((cfg0.win 2).blk t).view.read (Elt Ideal) (shapeCast S1x8192 Bv Facts₀.shapeCasts_S8192_S1x8192) := by
    unfold iblk; rw [show V m c (Pipeline.arrRef spec0 2) = _ from hB]
  rw [r0, r1, r2]
  funext j
  obtain ⟨p, q, rfl⟩ : ∃ (p : Fin 32) (q : Fin 256), j = ix2 p q := ⟨j 0, j 1, eq_ix2 j⟩
  have hq : q.val < 256 := q.isLt
  have hp : p.val < 32 := p.isLt
  have hemb : ((cfg0.win 3).blk t).view.emb (ix2 p q) = ix2 p (⟨t.val * 256 + q.val, by omega⟩ : Fin 8192) := by
    funext a; apply Fin.ext
    match a with
    | ⟨0, _⟩ => show win0_3.index t (0 : Fin 2) * 32 + 1 * p.val = p.val; omega
    | ⟨1, _⟩ => show win0_3.index t (1 : Fin 2) * 256 + 1 * q.val = t.val * 256 + q.val; omega
  show k0_pay1 (F := Ideal) _ _ _ (ix2 p q) = dense _ _ _ (((cfg0.win 3).blk t).view.emb (ix2 p q))
  rw [hemb, dense_ix2]
  refine point_eq X W Bv _ _ _ t.val ht ?_ ?_ ?_ p q
  · intro p k
    show X (((cfg0.win 0).blk t).view.emb (ix2 p k)) = _
    refine congrArg _ ?_
    funext a; apply Fin.ext
    match a with
    | ⟨0, _⟩ => show win0_0.index t (0 : Fin 2) * 32 + 1 * p.val = p.val; omega
    | ⟨1, _⟩ => show win0_0.index t (1 : Fin 2) * 8192 + 1 * k.val = k.val; omega
  · intro q k
    show W (((cfg0.win 1).blk t).view.emb (ix2 q k)) = _
    refine congrArg _ ?_
    funext a; apply Fin.ext
    match a with
    | ⟨0, _⟩ => show win0_1.index t (0 : Fin 2) * 256 + 1 * q.val = t.val * 256 + q.val; omega
    | ⟨1, _⟩ => show win0_1.index t (1 : Fin 2) * 8192 + 1 * k.val = k.val; omega
  · intro q
    show shapeCast S1x8192 Bv Facts₀.shapeCasts_S8192_S1x8192 (((cfg0.win 2).blk t).view.emb (ix2 0 q)) = _
    have he : ((cfg0.win 2).blk t).view.emb (ix2 (0 : Fin 1) q) = ix2 (0 : Fin 1) (⟨t.val * 256 + q.val, by have := q.isLt; omega⟩ : Fin 8192) := by
      funext a; apply Fin.ext
      match a with
      | ⟨0, _⟩ => show win0_2.index t (0 : Fin 2) * 1 + 1 * 0 = 0; omega
      | ⟨1, _⟩ => show win0_2.index t (1 : Fin 2) * 256 + 1 * q.val = t.val * 256 + q.val; omega
    rw [he]
    exact biasRow_apply _ _

/-- An index of the output is in point `t`'s block iff each coordinate is in the block's range. -/
theorem mem_blk (t : Fin cfg0.N) (i : S32x8192.Idx) :
    i ∈ ((cfg0.win 3).blk t).view.set ↔ ∀ a : Fin 2, win0_3.index t a * S32x256.size a ≤ (i a).val ∧ (i a).val < win0_3.index t a * S32x256.size a + S32x256.size a := by
  show i ∈ ((View.whole main_v20).slice (win0_3.rect t)).set ↔ _
  rw [View.set_slice_whole, Rect.mem_set_unit]
  exact Iff.rfl

/-- Every index of the output lies in the block of the point that handles its column. -/
theorem covered (i : S32x8192.Idx) :
    ∃ t : Fin cfg0.N, (cfg0.win 3).flush t = true ∧ i ∈ ((cfg0.win 3).blk t).view.set := by
  have hi0 : (i 0).val < 32 := (i 0).isLt
  have hi1 : (i 1).val < 8192 := (i 1).isLt
  obtain ⟨t, ht⟩ := block_onto ⟨(i 1).val / 256, by omega⟩
  have q0 : win0_3.index t (0 : Fin 2) = 0 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 256 ≤ (i 1).val ∧ (i 1).val < win0_3.index t (1 : Fin 2) * 256 + 256; omega

/-- The output array after the run is the dense layer of the argument arrays. -/
theorem final (c : Dev nD) :
    (dats m 0 c).arrAt 3 cfg0.N
      = dense (m ((c : Thread nD τ).loc main_arg0))
        (Cert.ReferenceIdeal.Read.val_main_v18 (F := Ideal) (m ((c : Thread nD τ).loc main_arg1)) (m ((c : Thread nD τ).loc main_arg2)))
        (m ((c : Thread nD τ).loc main_arg3)) :=
  (dats m 0 c).arrAt_eq_of_cover 3 _
    (fun t _ => flushed_eq m c t _ _ _ (V_main_arg0 m c) (V_weight m c) (V_biasRow m c)) covered

/-- The kernel's run with its result named: the dense layer of the arguments, the arguments unchanged. -/
theorem run : θ_run defs (onTc (τ := τ) (main (F := Ideal))) ⟨m, fun _ => 0, ρ⟩ fun r => ∀ c : Dev nD,
      r.2.mem ((c : Thread nD τ).loc main_v20)
        = dense (m ((c : Thread nD τ).loc main_arg0))
          (Cert.ReferenceIdeal.Read.val_main_v18 (F := Ideal) (m ((c : Thread nD τ).loc main_arg1)) (m ((c : Thread nD τ).loc main_arg2)))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.DenseLayer

end
-- ==== Proof.RefValue.lean ====
/-
  The reference's result, read at an index, is the dense layer of its arguments.

  After rebuilding the weight (a stage this file never opens) the reference takes the product of
  the input with the weight, contracting the last axis of both, and adds the bias broadcast first
  to a row `[1, 8192]` and then down the 32 rows. At `(b, o)`: the product is
  `∑ i, x[b, i] * w[o, i]` and the broadcast bias is `bias[o]`.
-/
import proofs.«118479_j17789754540032_1_alg».proof.Proof.Gen.ReferenceIdeal.Read
import proofs.«118479_j17789754540032_1_alg».proof.Proof.Spec

noncomputable section

open scoped BigOperators

namespace Cert.ReferenceIdeal.DenseLayer

open Cert.ReferenceIdeal Cert.ReferenceIdeal.Read Idealize.ShloMosaic Idealize.ShloMosaic.ValueIdx Cert.DenseLayer

/-- The reference's last stage is the dense layer of the input, the rebuilt weight and the bias. -/
theorem result_eq (x0 : (⟨S32x8192, .f32⟩ : BufTy).Contents (Elt Ideal)) (x1 : (⟨S33554432, .f32⟩ : BufTy).Contents (Elt Ideal))
    (x2 : (⟨S2x33554432, .i32⟩ : BufTy).Contents (Elt Ideal)) (x3 : (⟨S8192, .f32⟩ : BufTy).Contents (Elt Ideal)) :
    val_main_v22 (F := Ideal) x0 x1 x2 x3 = dense x0 (val_main_v18 (F := Ideal) x1 x2) x3 := by
  funext i
  obtain ⟨b, o, rfl⟩ : ∃ (b : Fin 32) (o : Fin 8192), i = ix2 b o := ⟨i 0, i 1, eq_ix2 i⟩
  have hl : ∀ k : Fin 8192, lidx_main_v19 (ix2 b o) k = ix2 b k := fun k =>
    funext fun a => Fin.ext (by match a with | ⟨0, _⟩ => rfl | ⟨1, _⟩ => rfl)
  have hr : ∀ k : Fin 8192, ridx_main_v19 (ix2 b o) k = ix2 o k := fun k =>
    funext fun a => Fin.ext (by match a with | ⟨0, _⟩ => rfl | ⟨1, _⟩ => rfl)
  have hb : idx_main_v20 (idx_main_v21 (ix2 b o)) = ix1 o :=
    funext fun a => Fin.ext (by match a with | ⟨0, _⟩ => rfl)
  rw [val_main_v22_apply, val_main_v19_apply, val_main_v21_apply, val_main_v20_apply, dense_ix2]
  unfold denseAt
  simp only [hl, hr, hb, Ideal.addf_def]

end Cert.ReferenceIdeal.DenseLayer

end
-- ==== Proof.lean ====
/-
  A dense layer whose weight arrives in sparse coordinate form: the kernel against its reference,
  over the extended reals.

  Both programs first rebuild the dense weight `w : [8192, 8192]` on the host from the coordinate
  form — a zero array, the two index rows (negative indices wrapped by 8192) paired up, and the
  values scatter-added at those pairs — by the same operations in the same order, so the two
  weights are one array of the same arguments, and this proof never looks inside it.

  The reference then computes `out[b, o] = (∑ i, x[b, i] * w[o, i]) + bias[o]` as one product
  contracting the last axis of both operands, plus the bias broadcast over the rows.

  The kernel computes the same thing in 32 grid points: point `t` loads the whole input, rows
  `256 t … 256 t + 255` of the weight and the matching 256 entries of the bias (re-laid as a row),
  narrows both product operands to a 16-bit format (the identity on the extended reals),
  multiplies into a zero accumulator, adds the bias and stores columns `256 t …` of the output.
  Each output entry is computed at exactly one point, as the full sum over the contraction axis
  plus its bias entry: the same extended real as the reference's, with no algebraic law needed
  beyond reading both products as the same sum — so finiteness of the inputs is never used.

  `Payload` reads the body's stored value at an index, `Weight` the two host-prepared arrays,
  `KernelValue` assembles the 32 blocks into the output array, `RefValue` reads the reference's
  result at an index; the three frames are the generated ones, and the idealization rewrote
  nothing, so `preserves` is trivial.
-/
import proofs.«118479_j17789754540032_1_alg».proof.Defs
import proofs.«118479_j17789754540032_1_alg».proof.Proof.Gen.Kernel
import proofs.«118479_j17789754540032_1_alg».proof.Proof.Gen.Kernel.Skeleton
import proofs.«118479_j17789754540032_1_alg».proof.Proof.Gen.Kernel.Launch
import proofs.«118479_j17789754540032_1_alg».proof.Proof.Gen.Kernel.Points
import proofs.«118479_j17789754540032_1_alg».proof.Proof.Gen.Kernel.Frame
import proofs.«118479_j17789754540032_1_alg».proof.Proof.Gen.KernelIdeal
import proofs.«118479_j17789754540032_1_alg».proof.Proof.Gen.KernelIdeal.Skeleton
import proofs.«118479_j17789754540032_1_alg».proof.Proof.Gen.KernelIdeal.Launch
import proofs.«118479_j17789754540032_1_alg».proof.Proof.Gen.KernelIdeal.Points
import proofs.«118479_j17789754540032_1_alg».proof.Proof.Gen.KernelIdeal.Frame
import proofs.«118479_j17789754540032_1_alg».proof.Proof.Gen.ReferenceIdeal
import proofs.«118479_j17789754540032_1_alg».proof.Proof.Gen.Pre_finite_inputs
import proofs.«118479_j17789754540032_1_alg».proof.Proof.Gen.KernelIdeal.Value
import proofs.«118479_j17789754540032_1_alg».proof.Proof.Gen.ReferenceIdeal.Run
import proofs.«118479_j17789754540032_1_alg».proof.Proof.Gen.ReferenceIdeal.Read
import proofs.«118479_j17789754540032_1_alg».proof.Proof.KernelValue
import proofs.«118479_j17789754540032_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From memories that agree on the four arguments both programs end with the dense layer of
    those arguments: the kernel block by block, the reference in one product. -/
theorem algebraic : Cert.algebraic_KernelIdeal_ReferenceIdeal := by
  intro m ρ m' ρ' _ hagree
  refine ⟨_, Cert.KernelIdeal.DenseLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.DenseLayer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
